-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192 .f32) (main_arg5 : FVec F S8192x2048 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S4x2048x2048 : Shape := ⟨3, ![4, 2048, 2048]⟩
abbrev S4x2048 : Shape := ⟨2, ![4, 2048]⟩
abbrev S512x2048 : Shape := ⟨2, ![512, 2048]⟩
abbrev S512x256 : Shape := ⟨2, ![512, 256]⟩
abbrev S4x256x2048 : Shape := ⟨3, ![4, 256, 2048]⟩
abbrev S4x256 : Shape := ⟨2, ![4, 256]⟩
abbrev S1x256x2048 : Shape := ⟨3, ![1, 256, 2048]⟩
abbrev S256x2048 : Shape := ⟨2, ![256, 2048]⟩
abbrev S1x256 : Shape := ⟨2, ![1, 256]⟩
abbrev S256 : Shape := ⟨1, ![256]⟩

abbrev nBuf : Space → Nat
  | .hbm => 17
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S4096x2048, .bf16⟩
  | .hbm, ⟨8, _⟩ => ⟨S4096x2048, .bf16⟩
  | .hbm, ⟨9, _⟩ => ⟨S8192x2048, .bf16⟩
  | .hbm, ⟨10, _⟩ => ⟨S4x2048x2048, .bf16⟩
  | .hbm, ⟨11, _⟩ => ⟨S8192x2048, .bf16⟩
  | .hbm, ⟨12, _⟩ => ⟨S4x2048x2048, .bf16⟩
  | .hbm, ⟨13, _⟩ => ⟨S4x2048, .f32⟩
  | .hbm, ⟨14, _⟩ => ⟨S4x2048, .f32⟩
  | .hbm, ⟨15, _⟩ => ⟨S4096x2048, .f32⟩
  | .hbm, ⟨16, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S4x256x2048, .bf16⟩
  | .local _ .vmem, ⟨7, _⟩ => ⟨S4x256x2048, .bf16⟩
  | .local _ .vmem, ⟨8, _⟩ => ⟨S4x256, .f32⟩
  | .local _ .vmem, ⟨9, _⟩ => ⟨S4x256, .f32⟩
  | .local _ .vmem, ⟨10, _⟩ => ⟨S4x256x2048, .bf16⟩
  | .local _ .vmem, ⟨11, _⟩ => ⟨S4x256x2048, .bf16⟩
  | .local _ .vmem, ⟨12, _⟩ => ⟨S4x256, .f32⟩
  | .local _ .vmem, ⟨13, _⟩ => ⟨S4x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  shapeCasts_S8192x2048_S4x2048x2048 : S8192x2048.ShapeCasts S4x2048x2048
  shapeCasts_S8192_S4x2048 : S8192.ShapeCasts S4x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S4x256x2048_S1x256x2048_1_0_0 : ∀ a, (![1, 0, 0] : Fin 3 → Nat) a + S1x256x2048.size a ≤ S4x256x2048.size a
  inb_S4x256_S1x256_1_0 : ∀ a, (![1, 0] : Fin 2 → Nat) a + S1x256.size a ≤ S4x256.size a
  inb_S4x256x2048_S1x256x2048_2_0_0 : ∀ a, (![2, 0, 0] : Fin 3 → Nat) a + S1x256x2048.size a ≤ S4x256x2048.size a
  inb_S4x256_S1x256_2_0 : ∀ a, (![2, 0] : Fin 2 → Nat) a + S1x256.size a ≤ S4x256.size a
  inb_S4x256x2048_S1x256x2048_3_0_0 : ∀ a, (![3, 0, 0] : Fin 3 → Nat) a + S1x256x2048.size a ≤ S4x256x2048.size a
  inb_S4x256_S1x256_3_0 : ∀ a, (![3, 0] : Fin 2 → Nat) a + S1x256.size a ≤ S4x256.size a
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x2048.size a ≤ S4x2048x2048.size a
  hwx0_3 : ∀ i : grid0.Coords, EltTy.bits .bf16 = 32 ∨ (Rect.block (s := S4x2048x2048) S4x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x2048.size a
  hwx0_4 : ∀ i : grid0.Coords, EltTy.bits .f32 = 32 ∨ (Rect.block (s := S4x2048) S4x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x2048.size a ≤ S4x2048x2048.size a
  hwx0_5 : ∀ i : grid0.Coords, EltTy.bits .bf16 = 32 ∨ (Rect.block (s := S4x2048x2048) S4x256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256.size a ≤ S4x2048.size a
  hwx0_6 : ∀ i : grid0.Coords, EltTy.bits .f32 = 32 ∨ (Rect.block (s := S4x2048) S4x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S4096x2048.size a
  hwx0_8 : ∀ i : grid0.Coords, EltTy.bits .f32 = 32 ∨ (Rect.block (s := S4096x2048) S512x256.size (cc0_transform_8 i) (hinb0_8 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S4x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S4096x8192, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.Cell.lean ====
/-
  One entry of an LSTM cell's two results as a function of the numbers it depends on, over the extended reals.

  For a batch row `b` and a hidden unit `h`, gate `g` (0: input, 1: forget, 2: candidate, 3: output) has the pre-activation
      pre g = ((Σ_k x[b,k]·Wx[r,k] + bx[r]) + Σ_k hx[b,k]·Wh[r,k]) + bh[r],      r = 2048·g + h,
  the row of unit `h` in the `g`-th quarter of the stacked weights; the sums are grouped exactly so in both programs, so
  no law of addition is needed to compare them. The new cell state and the new hidden state are
      cy = σ(pre 1)·cx[b,h] + σ(pre 0)·tanh(pre 2),        hy = σ(pre 3)·tanh(cy),
  with σ the logistic function `1/(1 + e^(-z))` (`Ideal.logistic`, total on the extended reals).
  The functions below take the numbers through ACCESSORS (a row of x, a row of hx, four rows of each weight matrix, four
  entries of each bias), so that one and the same term describes an entry of a 512 × 256 block read from the blocks of
  the operands and an entry of the 4096 × 2048 result read from the whole operands.
-/
import Idealize.ShloMosaic.PureOps.Ideal
import Idealize.ShloMosaic.PureOps.IdealRules
import Idealize.ShloMosaic.Lib.ValueIdx

noncomputable section

open scoped BigOperators

namespace Cert.LstmCell

open Idealize.ShloMosaic Idealize.ShloMosaic.ValueIdx

/-- A gate's pre-activation from a row of `x`, a row of `hx`, the gate unit's row of each weight matrix and its two
    biases: input product plus input bias, plus hidden product, plus hidden bias, grouped from the left. -/
def pre (xr hr wx wh : Fin 2048 → EReal) (bx bh : EReal) : EReal :=
  (∑ k : Fin 2048, xr k * wx k) + bx + (∑ k : Fin 2048, hr k * wh k) + bh

/-- Two pre-activations of the same rows of x and hx agree when the weight rows agree entry by entry and the biases agree. -/
theorem pre_congr {xr hr wx wh wx' wh' : Fin 2048 → EReal} {bx bh bx' bh' : EReal} (h1 : ∀ k, wx k = wx' k) (h2 : ∀ k, wh k = wh' k)
    (h3 : bx = bx') (h4 : bh = bh') : pre xr hr wx wh bx bh = pre xr hr wx' wh' bx' bh' := by
  rw [show wx = wx' from funext h1, show wh = wh' from funext h2, h3, h4]

/-- The new cell state: forget gate times the old state plus input gate times the candidate. -/
def cyOf (xr hr : Fin 2048 → EReal) (c : EReal) (wx wh : Fin 4 → Fin 2048 → EReal) (bx bh : Fin 4 → EReal) : EReal :=
  Ideal.logistic (pre xr hr (wx 1) (wh 1) (bx 1) (bh 1)) * c
    + Ideal.logistic (pre xr hr (wx 0) (wh 0) (bx 0) (bh 0)) * Ideal.tanh (pre xr hr (wx 2) (wh 2) (bx 2) (bh 2))

/-- The new hidden state: output gate times the hyperbolic tangent of the new cell state. -/
def hyOf (xr hr : Fin 2048 → EReal) (c : EReal) (wx wh : Fin 4 → Fin 2048 → EReal) (bx bh : Fin 4 → EReal) : EReal :=
  Ideal.logistic (pre xr hr (wx 3) (wh 3) (bx 3) (bh 3)) * Ideal.tanh (cyOf xr hr c wx wh bx bh)

/-- Unit `h` of gate `g` sits in row `2048·g + h` of the stacked `[4·2048, 2048]` weights and `[4·2048]` biases. -/
def row (g : Fin 4) (h : Fin 2048) : Fin 8192 :=
  ⟨2048 * g.val + h.val, by have := g.isLt; have := h.isLt; omega⟩

/-- The accessors of result entry (b, h) into the whole weight matrices and bias vectors. -/
abbrev arrW (a : (⟨2, ![8192, 2048]⟩ : Shape).Idx → EReal) (h : Fin 2048) : Fin 4 → Fin 2048 → EReal := fun g k => a (ix2 (row g h) k)
abbrev arrB (a : (⟨1, ![8192]⟩ : Shape).Idx → EReal) (h : Fin 2048) : Fin 4 → EReal := fun g => a (ix1 (row g h))

/-- The new cell state as one function of the seven argument arrays, entry by entry. -/
def cyArr (a0 a1 a2 : (⟨2, ![4096, 2048]⟩ : Shape).Idx → EReal) (a3 a5 : (⟨2, ![8192, 2048]⟩ : Shape).Idx → EReal)
    (a4 a6 : (⟨1, ![8192]⟩ : Shape).Idx → EReal) : (⟨2, ![4096, 2048]⟩ : Shape).Idx → EReal :=
  fun i => cyOf (fun k => a0 (ix2 (i 0) k)) (fun k => a1 (ix2 (i 0) k)) (a2 i) (arrW a3 (i 1)) (arrW a5 (i 1)) (arrB a4 (i 1)) (arrB a6 (i 1))

/-- The new hidden state as one function of the seven argument arrays, entry by entry. -/
def hyArr (a0 a1 a2 : (⟨2, ![4096, 2048]⟩ : Shape).Idx → EReal) (a3 a5 : (⟨2, ![8192, 2048]⟩ : Shape).Idx → EReal)
    (a4 a6 : (⟨1, ![8192]⟩ : Shape).Idx → EReal) : (⟨2, ![4096, 2048]⟩ : Shape).Idx → EReal :=
  fun i => hyOf (fun k => a0 (ix2 (i 0) k)) (fun k => a1 (ix2 (i 0) k)) (a2 i) (arrW a3 (i 1)) (arrW a5 (i 1)) (arrB a4 (i 1)) (arrB a6 (i 1))

/-- The word `0x3F800000` is the number one. -/
theorem one_f32 : Ideal.ofBits .f32 0x3F800000#32 = 1 := IdealRules.sign_bit.ideal_onePat .f32

/-- The sigmoid spelt out as `1 / (1 + e^(-z))` with the constant one given by its word is the logistic function. -/
theorem div_one_add_exp_neg (z : EReal) :
    Ideal.div (Ideal.ofBits .f32 0x3F800000#32) (Ideal.ofBits .f32 0x3F800000#32 + Ideal.exp (-z)) = Ideal.logistic z := by
  rw [one_f32]; rfl

end Cert.LstmCell

end
-- ==== Proof.RefCell.lean ====
/-
  The reference at an index. Its two results are read one operation at a time down to the arguments: the stacked
  pre-activations `[4096, 4·2048]` at (b, r) are the gate pre-activation of row `b` of x and hx against row `r` of the
  weights and entry `r` of the biases; the four column slices pick r = 2048·g + h; jax's sigmoid, spelt
  `1 / (1 + e^(-z))` with host operations, is the logistic function; and the cell's two formulas follow.
-/
import proofs.«154997_j2250562863750_1_alg».proof.Proof.Gen.ReferenceIdeal.Read
import proofs.«154997_j2250562863750_1_alg».proof.Proof.Cell

noncomputable section

namespace Cert.ReferenceIdeal.CellValue

open Cert.ReferenceIdeal Cert.ReferenceIdeal.Read Idealize.ShloMosaic Idealize.ShloMosaic.ValueIdx Cert.LstmCell

variable (x0 x1 x2 : (⟨S4096x2048, .f32⟩ : BufTy).Contents (Elt Ideal))
  (x3 x5 : (⟨S8192x2048, .f32⟩ : BufTy).Contents (Elt Ideal)) (x4 x6 : (⟨S8192, .f32⟩ : BufTy).Contents (Elt Ideal))

/-- The stacked pre-activations at batch row `b` and stacked row `r`. -/
theorem gates_apply (j : S4096x8192.Idx) :
    val_main_v8 (F := Ideal) x0 x1 x3 x4 x5 x6 j
      = pre (fun k => x0 (ix2 (j 0) k)) (fun k => x1 (ix2 (j 0) k)) (fun k => x3 (ix2 (j 1) k)) (fun k => x5 (ix2 (j 1) k))
          (x4 (ix1 (j 1))) (x6 (ix1 (j 1))) := by
  have el0 : ∀ k, lidx_main_v0 j k = ix2 (j 0) k := fun k => funext fun a => by
    match a with | ⟨0, _⟩ => rfl | ⟨1, _⟩ => rfl
  have er0 : ∀ k, ridx_main_v0 j k = ix2 (j 1) k := fun k => funext fun a => by
    match a with | ⟨0, _⟩ => rfl | ⟨1, _⟩ => rfl
  have el4 : ∀ k, lidx_main_v4 j k = ix2 (j 0) k := fun k => funext fun a => by
    match a with | ⟨0, _⟩ => rfl | ⟨1, _⟩ => rfl
  have er4 : ∀ k, ridx_main_v4 j k = ix2 (j 1) k := fun k => funext fun a => by
    match a with | ⟨0, _⟩ => rfl | ⟨1, _⟩ => rfl
  have eb1 : idx_main_v1 (idx_main_v2 j) = ix1 (j 1) := funext fun a => by
    match a with | ⟨0, _⟩ => rfl
  have eb6 : idx_main_v6 (idx_main_v7 j) = ix1 (j 1) := funext fun a => by
    match a with | ⟨0, _⟩ => rfl
  rw [val_main_v8_apply, val_main_v5_apply, val_main_v3_apply, val_main_v0_apply, val_main_v2_apply, val_main_v1_apply,
    val_main_v4_apply, val_main_v7_apply, val_main_v6_apply]
  simp only [el0, er0, el4, er4, eb1, eb6]
  rfl

/-- A column slice of the stacked pre-activations: gate `g`'s, at (b, h). -/
theorem gate_apply (g : Fin 4) (i : S4096x2048.Idx) (j : S4096x8192.Idx) (h0 : (j 0).val = (i 0).val)
    (h1 : (j 1).val = 2048 * g.val + (i 1).val) :
    val_main_v8 (F := Ideal) x0 x1 x3 x4 x5 x6 j
      = pre (fun k => x0 (ix2 (i 0) k)) (fun k => x1 (ix2 (i 0) k)) (fun k => x3 (ix2 (row g (i 1)) k))
          (fun k => x5 (ix2 (row g (i 1)) k)) (x4 (ix1 (row g (i 1)))) (x6 (ix1 (row g (i 1)))) := by
  rw [gates_apply]
  have e0 : j 0 = i 0 := Fin.ext h0
  have e1 : j 1 = row g (i 1) := Fin.ext h1
  rw [e0, e1]

/-- The reference's second result, the new cell state, at an index. -/
theorem cy_apply (i : S4096x2048.Idx) :
    val_main_v34 (F := Ideal) x0 x1 x2 x3 x4 x5 x6 i
      = cyOf (fun k => x0 (ix2 (i 0) k)) (fun k => x1 (ix2 (i 0) k)) (x2 i) (fun g k => x3 (ix2 (row g (i 1)) k))
          (fun g k => x5 (ix2 (row g (i 1)) k)) (fun g => x4 (ix1 (row g (i 1)))) (fun g => x6 (ix1 (row g (i 1)))) := by
  rw [val_main_v34_apply, val_main_v32_apply, val_main_v24_apply, val_main_v23_apply, val_main_cst_2_apply,
    val_main_v22_apply, val_main_v21_apply, val_main_cst_1_apply, val_main_v20_apply, val_main_v19_apply, val_main_v10_apply,
    val_main_v33_apply, val_main_v18_apply, val_main_v17_apply, val_main_cst_0_apply, val_main_v16_apply, val_main_v15_apply,
    val_main_cst_apply, val_main_v14_apply, val_main_v13_apply, val_main_v9_apply, val_main_v25_apply, val_main_v11_apply]
  rw [gate_apply x0 x1 x3 x5 x4 x6 1 i (idx_main_v10 i) rfl rfl, gate_apply x0 x1 x3 x5 x4 x6 0 i (idx_main_v9 i) rfl (by show (i 1).val = 2048 * 0 + (i 1).val; omega),
    gate_apply x0 x1 x3 x5 x4 x6 2 i (idx_main_v11 i) rfl rfl]
  show Ideal.div (Ideal.ofBits .f32 0x3F800000#32) (Ideal.ofBits .f32 0x3F800000#32 + Ideal.exp (-_)) * x2 i
      + Ideal.div (Ideal.ofBits .f32 0x3F800000#32) (Ideal.ofBits .f32 0x3F800000#32 + Ideal.exp (-_)) * Ideal.tanh _ = _
  rw [div_one_add_exp_neg, div_one_add_exp_neg]
  rfl

/-- The reference's first result, the new hidden state, at an index. -/
theorem hy_apply (i : S4096x2048.Idx) :
    val_main_v36 (F := Ideal) x0 x1 x2 x3 x4 x5 x6 i
      = hyOf (fun k => x0 (ix2 (i 0) k)) (fun k => x1 (ix2 (i 0) k)) (x2 i) (fun g k => x3 (ix2 (row g (i 1)) k))
          (fun g k => x5 (ix2 (row g (i 1)) k)) (fun g => x4 (ix1 (row g (i 1)))) (fun g => x6 (ix1 (row g (i 1)))) := by
  rw [val_main_v36_apply, val_main_v35_apply, cy_apply, val_main_v31_apply, val_main_v30_apply, val_main_cst_4_apply,
    val_main_v29_apply, val_main_v28_apply, val_main_cst_3_apply, val_main_v27_apply, val_main_v26_apply, val_main_v12_apply]
  rw [gate_apply x0 x1 x3 x5 x4 x6 3 i (idx_main_v12 i) rfl rfl]
  show Ideal.div (Ideal.ofBits .f32 0x3F800000#32) (Ideal.ofBits .f32 0x3F800000#32 + Ideal.exp (-_)) * Ideal.tanh _ = _
  rw [div_one_add_exp_neg]
  rfl

/-- The reference's new cell state is the whole-array function of the arguments. -/
theorem cy_eq : val_main_v34 (F := Ideal) x0 x1 x2 x3 x4 x5 x6 = cyArr x0 x1 x2 x3 x5 x4 x6 :=
  funext fun i => cy_apply x0 x1 x2 x3 x5 x4 x6 i

/-- The reference's new hidden state is the whole-array function of the arguments. -/
theorem hy_eq : val_main_v36 (F := Ideal) x0 x1 x2 x3 x4 x5 x6 = hyArr x0 x1 x2 x3 x5 x4 x6 :=
  funext fun i => hy_apply x0 x1 x2 x3 x5 x4 x6 i

end Cert.ReferenceIdeal.CellValue

end
-- ==== Proof.BlockCell.lean ====
/-
  The kernel body at one entry of its 512 × 256 output blocks. Each of the four gates is the same vector expression of
  a 512 × 2048 block of x, one of hx, one gate's 256 × 2048 slab of each weight block and its 256 biases: two matrix
  products into zero accumulators (each entry the sum over the 2048 contraction coordinates of the operands' products),
  the bias rows broadcast down the 512 rows, added in the order product, bias, product, bias. Read at (p, q) this is the
  gate pre-activation of row p of the two row blocks against row q of the slabs. The body's two stores then are the
  cell's two formulas at (p, q), the four gates taken from slabs 0 to 3 of the weight and bias blocks.
-/
import proofs.«154997_j2250562863750_1_alg».proof.Proof.Gen.KernelIdeal.Frame
import proofs.«154997_j2250562863750_1_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CellValue

open Cert.KernelIdeal Cert.KernelIdeal.Gen Idealize.ShloMosaic Idealize.ShloMosaic.ValueIdx Cert.LstmCell

/-! ## The matrix product of a row block with a slab, at an entry -/

theorem lhs_axis0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_axis1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_axis0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_axis1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- Entry (p, q) of `a · wᵀ` accumulated into zero: the sum over k of `a[p,k] · w[q,k]`. -/
theorem matmul_at (a : FVec Ideal S512x2048 .bf16) (w : FVec Ideal S256x2048 .bf16) (p : Fin 512) (q : Fin 256) :
    matmul dot_S512x2048_S256x2048_S512x256_1_1_0_0_n_n none a w (constant S512x256 .f32 0x00000000#32) (ix2 p q)
      = ∑ k : Fin 2048, a (ix2 p k) * w (ix2 q k) := by
  simp only [matmul]
  rw [Ideal.matmul_constant_zero_apply, ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p q) ((contrEquiv1 dot_S512x2048_S256x2048_S512x256_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S512x2048_S256x2048_S512x256_1_1_0_0_n_n.rhsIdx (ix2 p q) ((contrEquiv1 dot_S512x2048_S256x2048_S512x256_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-! ## One gate -/

/-- A gate's pre-activations over a block, as the body computes them from a row block of x, one of hx, the gate's slab
    of each weight block and its row of each bias block. -/
def gateVec (xb hb : FVec Ideal S512x2048 .bf16) (w wh : FVec Ideal S1x256x2048 .bf16) (b bh : FVec Ideal S1x256 .f32) :
    FVec Ideal S512x256 .f32 :=
  addf (addf (addf (matmul dot_S512x2048_S256x2048_S512x256_1_1_0_0_n_n none xb (shapeCast S256x2048 w shapeCasts_S1x256x2048_S256x2048) (constant S512x256 .f32 0x00000000#32))
        (broadcastTo S512x256 (shapeCast S1x256 (shapeCast S256 b shapeCasts_S1x256_S256) shapeCasts_S256_S1x256) broadcasts_S1x256_S512x256))
      (matmul dot_S512x2048_S256x2048_S512x256_1_1_0_0_n_n none hb (shapeCast S256x2048 wh shapeCasts_S1x256x2048_S256x2048) (constant S512x256 .f32 0x00000000#32)))
    (broadcastTo S512x256 (shapeCast S1x256 (shapeCast S256 bh shapeCasts_S1x256_S256) shapeCasts_S256_S1x256) broadcasts_S1x256_S512x256)

/-- A bias row, flattened and restored, then broadcast down the rows, reads its entry q at (p, q). -/
theorem bias_at (b : FVec Ideal S1x256 .f32) (p : Fin 512) (q : Fin 256) :
    broadcastTo S512x256 (shapeCast S1x256 (shapeCast S256 b shapeCasts_S1x256_S256) shapeCasts_S256_S1x256) broadcasts_S1x256_S512x256 (ix2 p q)
      = b (ix2 (0 : Fin 1) q) := by
  rw [shapeCast_shapeCast]
  exact broadcastTo_1b_ab_apply b broadcasts_S1x256_S512x256 p q

/-- The gate at (p, q) is the pre-activation of row p against row q of the slabs. -/
theorem gateVec_at (xb hb : FVec Ideal S512x2048 .bf16) (w wh : FVec Ideal S1x256x2048 .bf16) (b bh : FVec Ideal S1x256 .f32)
    (p : Fin 512) (q : Fin 256) :
    gateVec xb hb w wh b bh (ix2 p q)
      = pre (fun k => xb (ix2 p k)) (fun k => hb (ix2 p k)) (fun k => w (ix3 (0 : Fin 1) q k)) (fun k => wh (ix3 (0 : Fin 1) q k))
          (b (ix2 (0 : Fin 1) q)) (bh (ix2 (0 : Fin 1) q)) := by
  unfold gateVec pre
  simp only [addf_apply]
  rw [matmul_at, matmul_at, bias_at, bias_at]
  simp only [shapeCast_1ab_ab_apply]

/-! ## The loads of one gate's slab and bias row out of the four-gate blocks -/

theorem ld_slab0 (x : Vec Ideal S4x256x2048 .bf16) (q : Fin 256) (k : Fin 2048) :
    View.ld x r0_2 (ix3 (0 : Fin 1) q k) = x (ix3 (0 : Fin 4) q k) :=
  congrArg x (funext fun a => Fin.ext (by
    match a with
    | ⟨0, _⟩ => rfl
    | ⟨1, _⟩ => show 0 + 1 * q.val = q.val; omega
    | ⟨2, _⟩ => show 0 + 1 * k.val = k.val; omega))
theorem ld_slab1 (x : Vec Ideal S4x256x2048 .bf16) (q : Fin 256) (k : Fin 2048) :
    View.ld x r0_4 (ix3 (0 : Fin 1) q k) = x (ix3 (1 : Fin 4) q k) :=
  congrArg x (funext fun a => Fin.ext (by
    match a with
    | ⟨0, _⟩ => rfl
    | ⟨1, _⟩ => show 0 + 1 * q.val = q.val; omega
    | ⟨2, _⟩ => show 0 + 1 * k.val = k.val; omega))
theorem ld_slab2 (x : Vec Ideal S4x256x2048 .bf16) (q : Fin 256) (k : Fin 2048) :
    View.ld x r0_6 (ix3 (0 : Fin 1) q k) = x (ix3 (2 : Fin 4) q k) :=
  congrArg x (funext fun a => Fin.ext (by
    match a with
    | ⟨0, _⟩ => rfl
    | ⟨1, _⟩ => show 0 + 1 * q.val = q.val; omega
    | ⟨2, _⟩ => show 0 + 1 * k.val = k.val; omega))
theorem ld_slab3 (x : Vec Ideal S4x256x2048 .bf16) (q : Fin 256) (k : Fin 2048) :
    View.ld x r0_8 (ix3 (0 : Fin 1) q k) = x (ix3 (3 : Fin 4) q k) :=
  congrArg x (funext fun a => Fin.ext (by
    match a with
    | ⟨0, _⟩ => rfl
    | ⟨1, _⟩ => show 0 + 1 * q.val = q.val; omega
    | ⟨2, _⟩ => show 0 + 1 * k.val = k.val; omega))
theorem ld_bias0 (x : Vec Ideal S4x256 .f32) (q : Fin 256) :
    View.ld x r0_3 (ix2 (0 : Fin 1) q) = x (ix2 (0 : Fin 4) q) :=
  congrArg x (funext fun a => Fin.ext (by
    match a with
    | ⟨0, _⟩ => rfl
    | ⟨1, _⟩ => show 0 + 1 * q.val = q.val; omega))
theorem ld_bias1 (x : Vec Ideal S4x256 .f32) (q : Fin 256) :
    View.ld x r0_5 (ix2 (0 : Fin 1) q) = x (ix2 (1 : Fin 4) q) :=
  congrArg x (funext fun a => Fin.ext (by
    match a with
    | ⟨0, _⟩ => rfl
    | ⟨1, _⟩ => show 0 + 1 * q.val = q.val; omega))
theorem ld_bias2 (x : Vec Ideal S4x256 .f32) (q : Fin 256) :
    View.ld x r0_7 (ix2 (0 : Fin 1) q) = x (ix2 (2 : Fin 4) q) :=
  congrArg x (funext fun a => Fin.ext (by
    match a with
    | ⟨0, _⟩ => rfl
    | ⟨1, _⟩ => show 0 + 1 * q.val = q.val; omega))
theorem ld_bias3 (x : Vec Ideal S4x256 .f32) (q : Fin 256) :
    View.ld x r0_9 (ix2 (0 : Fin 1) q) = x (ix2 (3 : Fin 4) q) :=
  congrArg x (funext fun a => Fin.ext (by
    match a with
    | ⟨0, _⟩ => rfl
    | ⟨1, _⟩ => show 0 + 1 * q.val = q.val; omega))

/-! ## The two stores -/

theorem zeros2 : (![0, 0] : Fin 2 → Nat) = fun _ => 0 := funext fun a => by fin_cases a <;> rfl

/-- The body's gates as `gateVec`s: the row blocks enter through a shape cast to their own shape. -/
theorem cy_vec (v0 v2 : Vec Ideal S512x2048 .bf16) (c : Vec Ideal S512x256 .f32)
    (w0 wh0 w1 wh1 w2 wh2 : Vec Ideal S1x256x2048 .bf16) (b0 bh0 b1 bh1 b2 bh2 : Vec Ideal S1x256 .f32) :
    k0_pay1 c (k0_pay5 v0 v2 w0 b0 wh0 bh0) (k0_pay7 (k0_pay4 v2) (k0_pay6 v0 w1 b1) wh1 bh1) (k0_pay8 (k0_pay3 v0) (k0_pay4 v2) w2 b2 wh2 bh2)
      = addf (mulf (logistic (gateVec v0 v2 w1 wh1 b1 bh1)) c) (mulf (logistic (gateVec v0 v2 w0 wh0 b0 bh0)) (tanh (gateVec v0 v2 w2 wh2 b2 bh2))) := by
  unfold k0_pay1 k0_pay5 k0_pay7 k0_pay8 k0_pay6 k0_pay3 k0_pay4 gateVec
  simp only [shapeCast_self]

theorem hy_vec (v0 v2 : Vec Ideal S512x2048 .bf16) (c : Vec Ideal S512x256 .f32)
    (w0 wh0 w1 wh1 w2 wh2 w3 wh3 : Vec Ideal S1x256x2048 .bf16) (b0 bh0 b1 bh1 b2 bh2 b3 bh3 : Vec Ideal S1x256 .f32) :
    k0_pay2 (k0_pay4 v2) c (k0_pay5 v0 v2 w0 b0 wh0 bh0) (k0_pay7 (k0_pay4 v2) (k0_pay6 v0 w1 b1) wh1 bh1)
        (k0_pay8 (k0_pay3 v0) (k0_pay4 v2) w2 b2 wh2 bh2) (k0_pay9 (k0_pay3 v0) w3 b3) wh3 bh3
      = mulf (logistic (gateVec v0 v2 w3 wh3 b3 bh3))
          (tanh (addf (mulf (logistic (gateVec v0 v2 w1 wh1 b1 bh1)) c) (mulf (logistic (gateVec v0 v2 w0 wh0 b0 bh0)) (tanh (gateVec v0 v2 w2 wh2 b2 bh2))))) := by
  unfold k0_pay2 k0_pay9
  rw [cy_vec]
  unfold k0_pay3 k0_pay4 gateVec
  simp only [shapeCast_self]

/-- The accessors of entry (p, q) into the operands' blocks. -/
abbrev blkW (x : Vec Ideal S4x256x2048 .bf16) (q : Fin 256) : Fin 4 → Fin 2048 → EReal := fun g k => x (ix3 g q k)
abbrev blkB (x : Vec Ideal S4x256 .f32) (q : Fin 256) : Fin 4 → EReal := fun g => x (ix2 g q)

/-- What the body leaves in the cell-state block, at (p, q). -/
theorem out8_at (x0 x1 : Vec Ideal S512x2048 .bf16) (x2 : Vec Ideal S512x256 .f32) (x3 x5 : Vec Ideal S4x256x2048 .bf16)
    (x4 x6 : Vec Ideal S4x256 .f32) (p : Fin 512) (q : Fin 256) :
    out0_8 x0 x1 x2 x3 x4 x5 x6 (ix2 p q)
      = cyOf (fun k => x0 (ix2 p k)) (fun k => x1 (ix2 p k)) (x2 (ix2 p q)) (blkW x3 q) (blkW x5 q) (blkB x4 q) (blkB x6 q) := by
  unfold out0_8
  rw [View.canon_unit_zero zeros2]
  simp only [View.ld_unit_zero (S := S512x2048) zeros2, View.ld_unit_zero (S := S512x256) zeros2]
  rw [cy_vec]
  show Ideal.logistic (gateVec _ _ _ _ _ _ (ix2 p q)) * x2 (ix2 p q)
      + Ideal.logistic (gateVec _ _ _ _ _ _ (ix2 p q)) * Ideal.tanh (gateVec _ _ _ _ _ _ (ix2 p q)) = _
  rw [gateVec_at, gateVec_at, gateVec_at]
  rw [pre_congr (fun k => ld_slab1 x3 q k) (fun k => ld_slab1 x5 q k) (ld_bias1 x4 q) (ld_bias1 x6 q),
    pre_congr (fun k => ld_slab0 x3 q k) (fun k => ld_slab0 x5 q k) (ld_bias0 x4 q) (ld_bias0 x6 q),
    pre_congr (fun k => ld_slab2 x3 q k) (fun k => ld_slab2 x5 q k) (ld_bias2 x4 q) (ld_bias2 x6 q)]
  rfl

/-- What the body leaves in the hidden-state block, at (p, q). -/
theorem out7_at (x0 x1 : Vec Ideal S512x2048 .bf16) (x2 : Vec Ideal S512x256 .f32) (x3 x5 : Vec Ideal S4x256x2048 .bf16)
    (x4 x6 : Vec Ideal S4x256 .f32) (p : Fin 512) (q : Fin 256) :
    out0_7 x0 x1 x2 x3 x4 x5 x6 (ix2 p q)
      = hyOf (fun k => x0 (ix2 p k)) (fun k => x1 (ix2 p k)) (x2 (ix2 p q)) (blkW x3 q) (blkW x5 q) (blkB x4 q) (blkB x6 q) := by
  unfold out0_7
  rw [View.canon_unit_zero zeros2]
  simp only [View.ld_unit_zero (S := S512x2048) zeros2, View.ld_unit_zero (S := S512x256) zeros2]
  rw [hy_vec]
  show Ideal.logistic (gateVec _ _ _ _ _ _ (ix2 p q)) * Ideal.tanh (Ideal.logistic (gateVec _ _ _ _ _ _ (ix2 p q)) * x2 (ix2 p q)
      + Ideal.logistic (gateVec _ _ _ _ _ _ (ix2 p q)) * Ideal.tanh (gateVec _ _ _ _ _ _ (ix2 p q))) = _
  rw [gateVec_at, gateVec_at, gateVec_at, gateVec_at]
  rw [pre_congr (fun k => ld_slab3 x3 q k) (fun k => ld_slab3 x5 q k) (ld_bias3 x4 q) (ld_bias3 x6 q),
    pre_congr (fun k => ld_slab1 x3 q k) (fun k => ld_slab1 x5 q k) (ld_bias1 x4 q) (ld_bias1 x6 q),
    pre_congr (fun k => ld_slab0 x3 q k) (fun k => ld_slab0 x5 q k) (ld_bias0 x4 q) (ld_bias0 x6 q),
    pre_congr (fun k => ld_slab2 x3 q k) (fun k => ld_slab2 x5 q k) (ld_bias2 x4 q) (ld_bias2 x6 q)]
  rfl

/-! ## A block entry against the whole arrays

When every number an entry (p, q) of the block reads from the operands' blocks is the number entry `i` of the result
reads from the whole arrays, the block entry is the whole-array function at `i`. -/

theorem out8_eq_arr (X0 X1 : Vec Ideal S512x2048 .bf16) (X2 : Vec Ideal S512x256 .f32) (X3 X5 : Vec Ideal S4x256x2048 .bf16)
    (X4 X6 : Vec Ideal S4x256 .f32) (A0 A1 A2 : S4096x2048.Idx → EReal) (A3 A5 : S8192x2048.Idx → EReal) (A4 A6 : S8192.Idx → EReal)
    (y : S512x256.Idx) (i : S4096x2048.Idx)
    (h0 : ∀ k, X0 (ix2 (y 0) k) = A0 (ix2 (i 0) k)) (h1 : ∀ k, X1 (ix2 (y 0) k) = A1 (ix2 (i 0) k)) (h2 : X2 y = A2 i)
    (h3 : ∀ g k, X3 (ix3 g (y 1) k) = A3 (ix2 (row g (i 1)) k)) (h4 : ∀ g, X4 (ix2 g (y 1)) = A4 (ix1 (row g (i 1))))
    (h5 : ∀ g k, X5 (ix3 g (y 1) k) = A5 (ix2 (row g (i 1)) k)) (h6 : ∀ g, X6 (ix2 g (y 1)) = A6 (ix1 (row g (i 1)))) :
    out0_8 X0 X1 X2 X3 X4 X5 X6 y = cyArr A0 A1 A2 A3 A5 A4 A6 i := by
  obtain ⟨p, q, rfl⟩ : ∃ (p : Fin 512) (q : Fin 256), y = ix2 p q := ⟨y 0, y 1, eq_ix2 y⟩
  rw [out8_at]
  unfold cyArr
  rw [show (fun k => X0 (ix2 p k)) = (fun k => A0 (ix2 (i 0) k)) from funext h0,
    show (fun k => X1 (ix2 p k)) = (fun k => A1 (ix2 (i 0) k)) from funext h1, h2,
    show blkW X3 q = arrW A3 (i 1) from funext fun g => funext (h3 g), show blkW X5 q = arrW A5 (i 1) from funext fun g => funext (h5 g),
    show blkB X4 q = arrB A4 (i 1) from funext h4, show blkB X6 q = arrB A6 (i 1) from funext h6]

theorem out7_eq_arr (X0 X1 : Vec Ideal S512x2048 .bf16) (X2 : Vec Ideal S512x256 .f32) (X3 X5 : Vec Ideal S4x256x2048 .bf16)
    (X4 X6 : Vec Ideal S4x256 .f32) (A0 A1 A2 : S4096x2048.Idx → EReal) (A3 A5 : S8192x2048.Idx → EReal) (A4 A6 : S8192.Idx → EReal)
    (y : S512x256.Idx) (i : S4096x2048.Idx)
    (h0 : ∀ k, X0 (ix2 (y 0) k) = A0 (ix2 (i 0) k)) (h1 : ∀ k, X1 (ix2 (y 0) k) = A1 (ix2 (i 0) k)) (h2 : X2 y = A2 i)
    (h3 : ∀ g k, X3 (ix3 g (y 1) k) = A3 (ix2 (row g (i 1)) k)) (h4 : ∀ g, X4 (ix2 g (y 1)) = A4 (ix1 (row g (i 1))))
    (h5 : ∀ g k, X5 (ix3 g (y 1) k) = A5 (ix2 (row g (i 1)) k)) (h6 : ∀ g, X6 (ix2 g (y 1)) = A6 (ix1 (row g (i 1)))) :
    out0_7 X0 X1 X2 X3 X4 X5 X6 y = hyArr A0 A1 A2 A3 A5 A4 A6 i := by
  obtain ⟨p, q, rfl⟩ : ∃ (p : Fin 512) (q : Fin 256), y = ix2 p q := ⟨y 0, y 1, eq_ix2 y⟩
  rw [out7_at]
  unfold hyArr
  rw [show (fun k => X0 (ix2 p k)) = (fun k => A0 (ix2 (i 0) k)) from funext h0,
    show (fun k => X1 (ix2 p k)) = (fun k => A1 (ix2 (i 0) k)) from funext h1, h2,
    show blkW X3 q = arrW A3 (i 1) from funext fun g => funext (h3 g), show blkW X5 q = arrW A5 (i 1) from funext fun g => funext (h5 g),
    show blkB X4 q = arrB A4 (i 1) from funext h4, show blkB X6 q = arrB A6 (i 1) from funext h6]

end Cert.KernelIdeal.CellValue

end
-- ==== Proof.Arrays.lean ====
/-
  From blocks to arrays. The region runs on an 8 × 8 grid; at point (i, j) it reads rows 512·i … of x and hx (cast to
  bf16, which changes no value over the extended reals), the 512 × 256 block (i, j) of cx, and from the weights and biases,
  reshaped from `[4·2048, …]` to `[4, 2048, …]`, the rows 256·j … of all four gates; it writes block (i, j) of both
  results. Entry (g, r, k) of a reshaped weight matrix is entry (2048·g + r, k) of the argument, so every number the
  block entry (p, q) reads is the number the result entry (512·i + p, 256·j + q) reads from the whole arguments, and
  what the point writes back is block (i, j) of the whole-array cell functions. The 64 blocks tile the result.
-/
import proofs.«154997_j2250562863750_1_alg».proof.Proof.Gen.KernelIdeal.Value
import proofs.«154997_j2250562863750_1_alg».proof.Proof.BlockCell
import Idealize.ShloMosaic.Lib.StableHlo.Run

noncomputable section

namespace Cert.KernelIdeal.CellValue

open Cert.KernelIdeal Cert.KernelIdeal.Gen Idealize.ShloMosaic Idealize.ShloMosaic.TcCoe Idealize.SL.Sem
open Idealize.ShloMosaic.ValueIdx Idealize.ShloMosaic.StableHlo Cert.LstmCell
open Idealize.ShloMosaic.Pipeline (Dat)

variable (m : (ℓ : Loc nD τ sig) → Buf (Elt Ideal) ℓ) (ρ : Dev nD → PrngReg)

/-! ## The arrays the region finds -/

/-- The bf16 copy of x holds x's values. -/
theorem V_main_v0 (c : Dev nD) : (V m c main_v0 : S4096x2048.Idx → EReal) = m ((c : Thread nD τ).loc main_arg0) := by
  dsimp only [Gen.V, Gen.hostOps0]; after_results; rfl
/-- The bf16 copy of hx holds hx's values. -/
theorem V_main_v1 (c : Dev nD) : (V m c main_v1 : S4096x2048.Idx → EReal) = m ((c : Thread nD τ).loc main_arg1) := by
  dsimp only [Gen.V, Gen.hostOps0]; after_results; rfl
/-- The reshaped bf16 copy of Wx at (g, r, k) is Wx at (2048·g + r, k). -/
theorem V_main_v3_at (c : Dev nD) (g : Fin 4) (r : Fin 2048) (k : Fin 2048) :
    V m c main_v3 (ix3 g r k) = m ((c : Thread nD τ).loc main_arg3) (ix2 (row g r) k) := by
  have e : (V m c main_v3 : S4x2048x2048.Idx → EReal)
      = shapeCast S4x2048x2048 (m ((c : Thread nD τ).loc main_arg3)) shapeCasts_S8192x2048_S4x2048x2048 := by
    dsimp only [Gen.V, Gen.hostOps0]; after_results; rfl
  refine (congrFun e _).trans (shapeCast_apply _ _ _ (ix2 (row g r) k) ?_)
  rw [Shape.rowMajor_val_two, Shape.rowMajor_val_three]
  show (2048 * g.val + r.val) * 2048 + k.val = (g.val * 2048 + r.val) * 2048 + k.val
  omega
/-- The reshaped bf16 copy of Wh at (g, r, k) is Wh at (2048·g + r, k). -/
theorem V_main_v5_at (c : Dev nD) (g : Fin 4) (r : Fin 2048) (k : Fin 2048) :
    V m c main_v5 (ix3 g r k) = m ((c : Thread nD τ).loc main_arg5) (ix2 (row g r) k) := by
  have e : (V m c main_v5 : S4x2048x2048.Idx → EReal)
      = shapeCast S4x2048x2048 (m ((c : Thread nD τ).loc main_arg5)) shapeCasts_S8192x2048_S4x2048x2048 := by
    dsimp only [Gen.V, Gen.hostOps0]; after_results; rfl
  refine (congrFun e _).trans (shapeCast_apply _ _ _ (ix2 (row g r) k) ?_)
  rw [Shape.rowMajor_val_two, Shape.rowMajor_val_three]
  show (2048 * g.val + r.val) * 2048 + k.val = (g.val * 2048 + r.val) * 2048 + k.val
  omega
/-- The reshaped bx at (g, r) is bx at 2048·g + r. -/
theorem V_main_v6_at (c : Dev nD) (g : Fin 4) (r : Fin 2048) :
    V m c main_v6 (ix2 g r) = m ((c : Thread nD τ).loc main_arg4) (ix1 (row g r)) := by
  have e : (V m c main_v6 : S4x2048.Idx → EReal)
      = shapeCast S4x2048 (m ((c : Thread nD τ).loc main_arg4)) shapeCasts_S8192_S4x2048 := by
    dsimp only [Gen.V, Gen.hostOps0]; after_results; rfl
  refine (congrFun e _).trans (shapeCast_apply _ _ _ (ix1 (row g r)) ?_)
  rw [Shape.rowMajor_val_one, Shape.rowMajor_val_two]
  show 2048 * g.val + r.val = g.val * 2048 + r.val
  omega
/-- The reshaped bh at (g, r) is bh at 2048·g + r. -/
theorem V_main_v7_at (c : Dev nD) (g : Fin 4) (r : Fin 2048) :
    V m c main_v7 (ix2 g r) = m ((c : Thread nD τ).loc main_arg6) (ix1 (row g r)) := by
  have e : (V m c main_v7 : S4x2048.Idx → EReal)
      = shapeCast S4x2048 (m ((c : Thread nD τ).loc main_arg6)) shapeCasts_S8192_S4x2048 := by
    dsimp only [Gen.V, Gen.hostOps0]; after_results; rfl
  refine (congrFun e _).trans (shapeCast_apply _ _ _ (ix1 (row g r)) ?_)
  rw [Shape.rowMajor_val_one, Shape.rowMajor_val_two]
  show 2048 * g.val + r.val = g.val * 2048 + r.val
  omega

/-! ## The index maps over the grid -/

/-- Against the results' block index (i, j): x, hx at (i, 0); cx and both results at (i, j); the weights at (0, j, 0) and
    the biases at (0, j); i, j ≤ 7. Decided over the 64 points. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = win0_7.index t (1 : Fin 2)
    ∧ win0_3.index t (0 : Fin 3) = 0 ∧ win0_3.index t (1 : Fin 3) = win0_7.index t (1 : Fin 2) ∧ win0_3.index t (2 : Fin 3) = 0
    ∧ win0_4.index t (0 : Fin 2) = 0 ∧ win0_4.index t (1 : Fin 2) = win0_7.index t (1 : Fin 2)
    ∧ win0_5.index t (0 : Fin 3) = 0 ∧ win0_5.index t (1 : Fin 3) = win0_7.index t (1 : Fin 2) ∧ win0_5.index t (2 : Fin 3) = 0
    ∧ win0_6.index t (0 : Fin 2) = 0 ∧ win0_6.index t (1 : Fin 2) = win0_7.index t (1 : Fin 2)
    ∧ win0_8.index t (0 : Fin 2) = win0_7.index t (0 : Fin 2) ∧ win0_8.index t (1 : Fin 2) = win0_7.index t (1 : Fin 2)
    ∧ win0_7.index t (0 : Fin 2) ≤ 7 ∧ win0_7.index t (1 : Fin 2) ≤ 7 :=
  (by decide +kernel : ∀ t : Fin grid0.N, _)

/-- Every block index (i, j) with i, j < 8 is some point's. -/
theorem idx_onto : ∀ (q0 : Fin 8) (q1 : Fin 8), ∃ t : Fin cfg0.N, win0_7.index t = ![q0.val, q1.val] :=
  (by decide +kernel : ∀ (q0 : Fin 8) (q1 : Fin 8), ∃ t : Fin grid0.N, win0_7.index t = ![q0.val, q1.val])

/-! ## The operands' blocks at a point, read from the arguments -/

/-- Row p of the x block at a point with result block index (i, j) is row 512·i + p of x. -/
theorem read_x (c : Dev nD) (t : Fin cfg0.N) (p : Fin 512) (k : Fin 2048) (P : Fin 4096)
    (hP : P.val = win0_7.index t (0 : Fin 2) * 512 + p.val) :
    iblk m c 0 t (ix2 p k) = m ((c : Thread nD τ).loc main_arg0) (ix2 P k) := by
  obtain ⟨e00, e01, e10, e11, e20, e21, e30, e31, e32, e40, e41, e50, e51, e52, e60, e61, e80, e81, b0, b1⟩ := idx_facts t
  show V m c main_v0 (((cfg0.win 0).blk t).view.emb (ix2 p k)) = _
  refine (congrFun (V_main_v0 m c) _).trans (congrArg (m ((c : Thread nD τ).loc main_arg0)) (funext fun a => Fin.ext ?_))
  match a with
  | ⟨0, _⟩ => show win0_0.index t (0 : Fin 2) * 512 + 1 * p.val = P.val; omega
  | ⟨1, _⟩ => show win0_0.index t (1 : Fin 2) * 2048 + 1 * k.val = k.val; omega
/-- Row p of the hx block is row 512·i + p of hx. -/
theorem read_hx (c : Dev nD) (t : Fin cfg0.N) (p : Fin 512) (k : Fin 2048) (P : Fin 4096)
    (hP : P.val = win0_7.index t (0 : Fin 2) * 512 + p.val) :
    iblk m c 1 t (ix2 p k) = m ((c : Thread nD τ).loc main_arg1) (ix2 P k) := by
  obtain ⟨e00, e01, e10, e11, e20, e21, e30, e31, e32, e40, e41, e50, e51, e52, e60, e61, e80, e81, b0, b1⟩ := idx_facts t
  show V m c main_v1 (((cfg0.win 1).blk t).view.emb (ix2 p k)) = _
  refine (congrFun (V_main_v1 m c) _).trans (congrArg (m ((c : Thread nD τ).loc main_arg1)) (funext fun a => Fin.ext ?_))
  match a with
  | ⟨0, _⟩ => show win0_1.index t (0 : Fin 2) * 512 + 1 * p.val = P.val; omega
  | ⟨1, _⟩ => show win0_1.index t (1 : Fin 2) * 2048 + 1 * k.val = k.val; omega
/-- Entry (p, q) of the cx block is entry (512·i + p, 256·j + q) of cx. -/
theorem read_cx (c : Dev nD) (t : Fin cfg0.N) (y : S512x256.Idx) (i : S4096x2048.Idx)
    (h0 : (i 0).val = win0_7.index t (0 : Fin 2) * 512 + (y 0).val) (h1 : (i 1).val = win0_7.index t (1 : Fin 2) * 256 + (y 1).val) :
    iblk m c 2 t y = m ((c : Thread nD τ).loc main_arg2) i := by
  obtain ⟨e00, e01, e10, e11, e20, e21, e30, e31, e32, e40, e41, e50, e51, e52, e60, e61, e80, e81, b0, b1⟩ := idx_facts t
  show V m c main_arg2 (((cfg0.win 2).blk t).view.emb y) = _
  refine (congrFun (V_main_arg2 m c) _).trans (congrArg (m ((c : Thread nD τ).loc main_arg2)) (funext fun a => Fin.ext ?_))
  match a with
  | ⟨0, _⟩ => show win0_2.index t (0 : Fin 2) * 512 + 1 * (y 0).val = (i 0).val; omega
  | ⟨1, _⟩ => show win0_2.index t (1 : Fin 2) * 256 + 1 * (y 1).val = (i 1).val; omega
/-- Row q of gate g in the Wx block is row 2048·g + 256·j + q of Wx. -/
theorem read_wx (c : Dev nD) (t : Fin cfg0.N) (g : Fin 4) (q : Fin 256) (k : Fin 2048) (Q : Fin 2048)
    (hQ : Q.val = win0_7.index t (1 : Fin 2) * 256 + q.val) :
    iblk m c 3 t (ix3 g q k) = m ((c : Thread nD τ).loc main_arg3) (ix2 (row g Q) k) := by
  obtain ⟨e00, e01, e10, e11, e20, e21, e30, e31, e32, e40, e41, e50, e51, e52, e60, e61, e80, e81, b0, b1⟩ := idx_facts t
  show V m c main_v3 (((cfg0.win 3).blk t).view.emb (ix3 g q k)) = _
  refine (congrArg (V m c main_v3) (?_ : _ = ix3 g Q k)).trans (V_main_v3_at m c g Q k)
  funext a; apply Fin.ext
  match a with
  | ⟨0, _⟩ => show win0_3.index t (0 : Fin 3) * 4 + 1 * g.val = g.val; omega
  | ⟨1, _⟩ => show win0_3.index t (1 : Fin 3) * 256 + 1 * q.val = Q.val; omega
  | ⟨2, _⟩ => show win0_3.index t (2 : Fin 3) * 2048 + 1 * k.val = k.val; omega
/-- Row q of gate g in the Wh block is row 2048·g + 256·j + q of Wh. -/
theorem read_wh (c : Dev nD) (t : Fin cfg0.N) (g : Fin 4) (q : Fin 256) (k : Fin 2048) (Q : Fin 2048)
    (hQ : Q.val = win0_7.index t (1 : Fin 2) * 256 + q.val) :
    iblk m c 5 t (ix3 g q k) = m ((c : Thread nD τ).loc main_arg5) (ix2 (row g Q) k) := by
  obtain ⟨e00, e01, e10, e11, e20, e21, e30, e31, e32, e40, e41, e50, e51, e52, e60, e61, e80, e81, b0, b1⟩ := idx_facts t
  show V m c main_v5 (((cfg0.win 5).blk t).view.emb (ix3 g q k)) = _
  refine (congrArg (V m c main_v5) (?_ : _ = ix3 g Q k)).trans (V_main_v5_at m c g Q k)
  funext a; apply Fin.ext
  match a with
  | ⟨0, _⟩ => show win0_5.index t (0 : Fin 3) * 4 + 1 * g.val = g.val; omega
  | ⟨1, _⟩ => show win0_5.index t (1 : Fin 3) * 256 + 1 * q.val = Q.val; omega
  | ⟨2, _⟩ => show win0_5.index t (2 : Fin 3) * 2048 + 1 * k.val = k.val; omega
/-- Entry q of gate g in the bx block is entry 2048·g + 256·j + q of bx. -/
theorem read_bx (c : Dev nD) (t : Fin cfg0.N) (g : Fin 4) (q : Fin 256) (Q : Fin 2048)
    (hQ : Q.val = win0_7.index t (1 : Fin 2) * 256 + q.val) :
    iblk m c 4 t (ix2 g q) = m ((c : Thread nD τ).loc main_arg4) (ix1 (row g Q)) := by
  obtain ⟨e00, e01, e10, e11, e20, e21, e30, e31, e32, e40, e41, e50, e51, e52, e60, e61, e80, e81, b0, b1⟩ := idx_facts t
  show V m c main_v6 (((cfg0.win 4).blk t).view.emb (ix2 g q)) = _
  refine (congrArg (V m c main_v6) (?_ : _ = ix2 g Q)).trans (V_main_v6_at m c g Q)
  funext a; apply Fin.ext
  match a with
  | ⟨0, _⟩ => show win0_4.index t (0 : Fin 2) * 4 + 1 * g.val = g.val; omega
  | ⟨1, _⟩ => show win0_4.index t (1 : Fin 2) * 256 + 1 * q.val = Q.val; omega
/-- Entry q of gate g in the bh block is entry 2048·g + 256·j + q of bh. -/
theorem read_bh (c : Dev nD) (t : Fin cfg0.N) (g : Fin 4) (q : Fin 256) (Q : Fin 2048)
    (hQ : Q.val = win0_7.index t (1 : Fin 2) * 256 + q.val) :
    iblk m c 6 t (ix2 g q) = m ((c : Thread nD τ).loc main_arg6) (ix1 (row g Q)) := by
  obtain ⟨e00, e01, e10, e11, e20, e21, e30, e31, e32, e40, e41, e50, e51, e52, e60, e61, e80, e81, b0, b1⟩ := idx_facts t
  show V m c main_v7 (((cfg0.win 6).blk t).view.emb (ix2 g q)) = _
  refine (congrArg (V m c main_v7) (?_ : _ = ix2 g Q)).trans (V_main_v7_at m c g Q)
  funext a; apply Fin.ext
  match a with
  | ⟨0, _⟩ => show win0_6.index t (0 : Fin 2) * 4 + 1 * g.val = g.val; omega
  | ⟨1, _⟩ => show win0_6.index t (1 : Fin 2) * 256 + 1 * q.val = Q.val; omega

/-! ## The hidden state (output window 7) -/

/-- Point `t` writes back block `t` of the whole-array function of the arguments. -/
theorem flushed7_eq (c : Dev nD) (t : Fin cfg0.N) :
    (dats m 0 c).flushed 7 t = ((cfg0.win 7).blk t).view.read (Elt Ideal) (hyArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  rw [Value.flushed7]
  funext y
  have hy0 : (y 0).val < 512 := (y 0).isLt
  have hy1 : (y 1).val < 256 := (y 1).isLt
  obtain ⟨e00, e01, e10, e11, e20, e21, e30, e31, e32, e40, e41, e50, e51, e52, e60, e61, e80, e81, b0, b1⟩ := idx_facts t
  show out0_7 (iblk m c 0 t) (iblk m c 1 t) (iblk m c 2 t) (iblk m c 3 t) (iblk m c 4 t) (iblk m c 5 t) (iblk m c 6 t)
        ((cfg0.win 7).xinj (grid0.coords t) y)
      = hyArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 7).blk t).view.emb y)
  refine out7_eq_arr _ _ _ _ _ _ _ _ _ _ _ _ _ _ _ _ ?_ ?_ ?_ ?_ ?_ ?_ ?_
  · exact fun k => read_x m c t _ k _ (by show win0_7.index t (0 : Fin 2) * 512 + 1 * (y 0).val = win0_7.index t (0 : Fin 2) * 512 + (y 0).val; omega)
  · exact fun k => read_hx m c t _ k _ (by show win0_7.index t (0 : Fin 2) * 512 + 1 * (y 0).val = win0_7.index t (0 : Fin 2) * 512 + (y 0).val; omega)
  · exact read_cx m c t _ _ (by show win0_7.index t (0 : Fin 2) * 512 + 1 * (y 0).val = win0_7.index t (0 : Fin 2) * 512 + (y 0).val; omega)
      (by show win0_7.index t (1 : Fin 2) * 256 + 1 * (y 1).val = win0_7.index t (1 : Fin 2) * 256 + (y 1).val; omega)
  · exact fun g k => read_wx m c t g _ k _ (by show win0_7.index t (1 : Fin 2) * 256 + 1 * (y 1).val = win0_7.index t (1 : Fin 2) * 256 + (y 1).val; omega)
  · exact fun g => read_bx m c t g _ _ (by show win0_7.index t (1 : Fin 2) * 256 + 1 * (y 1).val = win0_7.index t (1 : Fin 2) * 256 + (y 1).val; omega)
  · exact fun g k => read_wh m c t g _ k _ (by show win0_7.index t (1 : Fin 2) * 256 + 1 * (y 1).val = win0_7.index t (1 : Fin 2) * 256 + (y 1).val; omega)
  · exact fun g => read_bh m c t g _ _ (by show win0_7.index t (1 : Fin 2) * 256 + 1 * (y 1).val = win0_7.index t (1 : Fin 2) * 256 + (y 1).val; omega)

/-- An index of the result is in point `t`'s block iff each coordinate is in the block's range on its axis. -/
theorem mem_blk7 (t : Fin cfg0.N) (i : S4096x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v8_0).slice (win0_7.rect t)).set ↔ _
  rw [View.set_slice_whole, Rect.mem_set_unit]
  exact Iff.rfl

/-- The 8 × 8 blocks tile the result: entry (r, s) is in the block of the point with block index (r / 512, s / 256). -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  obtain ⟨e00, e01, e10, e11, e20, e21, e30, e31, e32, e40, e41, e50, e51, e52, e60, e61, e80, e81, b0, b1⟩ := idx_facts t
  have q0 : win0_7.index t (0 : Fin 2) = (i 0).val / 512 := congrFun ht 0
  have q1 : win0_7.index t (1 : Fin 2) = (i 1).val / 256 := congrFun ht 1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-- The array after the run is the whole-array function of the arguments. -/
theorem final7 (c : Dev nD) : (dats m 0 c).arrAt 7 cfg0.N = hyArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 7 _ (fun t _ => flushed7_eq m c t) cover7

/-! ## The cell state (output window 8) -/

/-- Point `t` writes back block `t` of the whole-array function of the arguments. -/
theorem flushed8_eq (c : Dev nD) (t : Fin cfg0.N) :
    (dats m 0 c).flushed 8 t = ((cfg0.win 8).blk t).view.read (Elt Ideal) (cyArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  rw [Value.flushed8]
  funext y
  have hy0 : (y 0).val < 512 := (y 0).isLt
  have hy1 : (y 1).val < 256 := (y 1).isLt
  obtain ⟨e00, e01, e10, e11, e20, e21, e30, e31, e32, e40, e41, e50, e51, e52, e60, e61, e80, e81, b0, b1⟩ := idx_facts t
  show out0_8 (iblk m c 0 t) (iblk m c 1 t) (iblk m c 2 t) (iblk m c 3 t) (iblk m c 4 t) (iblk m c 5 t) (iblk m c 6 t)
        ((cfg0.win 8).xinj (grid0.coords t) y)
      = cyArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 8).blk t).view.emb y)
  refine out8_eq_arr _ _ _ _ _ _ _ _ _ _ _ _ _ _ _ _ ?_ ?_ ?_ ?_ ?_ ?_ ?_
  · exact fun k => read_x m c t _ k _ (by show win0_8.index t (0 : Fin 2) * 512 + 1 * (y 0).val = win0_7.index t (0 : Fin 2) * 512 + (y 0).val; omega)
  · exact fun k => read_hx m c t _ k _ (by show win0_8.index t (0 : Fin 2) * 512 + 1 * (y 0).val = win0_7.index t (0 : Fin 2) * 512 + (y 0).val; omega)
  · exact read_cx m c t _ _ (by show win0_8.index t (0 : Fin 2) * 512 + 1 * (y 0).val = win0_7.index t (0 : Fin 2) * 512 + (y 0).val; omega)
      (by show win0_8.index t (1 : Fin 2) * 256 + 1 * (y 1).val = win0_7.index t (1 : Fin 2) * 256 + (y 1).val; omega)
  · exact fun g k => read_wx m c t g _ k _ (by show win0_8.index t (1 : Fin 2) * 256 + 1 * (y 1).val = win0_7.index t (1 : Fin 2) * 256 + (y 1).val; omega)
  · exact fun g => read_bx m c t g _ _ (by show win0_8.index t (1 : Fin 2) * 256 + 1 * (y 1).val = win0_7.index t (1 : Fin 2) * 256 + (y 1).val; omega)
  · exact fun g k => read_wh m c t g _ k _ (by show win0_8.index t (1 : Fin 2) * 256 + 1 * (y 1).val = win0_7.index t (1 : Fin 2) * 256 + (y 1).val; omega)
  · exact fun g => read_bh m c t g _ _ (by show win0_8.index t (1 : Fin 2) * 256 + 1 * (y 1).val = win0_7.index t (1 : Fin 2) * 256 + (y 1).val; omega)

/-- An index of the result is in point `t`'s block iff each coordinate is in the block's range on its axis. -/
theorem mem_blk8 (t : Fin cfg0.N) (i : S4096x2048.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v8_1).slice (win0_8.rect t)).set ↔ _
  rw [View.set_slice_whole, Rect.mem_set_unit]
  exact Iff.rfl

/-- The 8 × 8 blocks tile the result: entry (r, s) is in the block of the point with block index (r / 512, s / 256). -/
theorem cover8 (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  obtain ⟨e00, e01, e10, e11, e20, e21, e30, e31, e32, e40, e41, e50, e51, e52, e60, e61, e80, e81, b0, b1⟩ := idx_facts t
  have q0 : win0_7.index t (0 : Fin 2) = (i 0).val / 512 := congrFun ht 0
  have q1 : win0_7.index t (1 : Fin 2) = (i 1).val / 256 := congrFun ht 1
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

/-- The array after the run is the whole-array function of the arguments. -/
theorem final8 (c : Dev nD) : (dats m 0 c).arrAt 8 cfg0.N = cyArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 8 _ (fun t _ => flushed8_eq m c t) cover8

/-! ## The run, read -/

/-- The kernel's run with both results named as whole-array functions of the arguments, the arguments unchanged. -/
theorem run : θ_run defs (onTc (τ := τ) (main (F := Ideal))) ⟨m, fun _ => 0, ρ⟩ fun r => ∀ c : Dev nD,
      r.2.mem ((c : Thread nD τ).loc main_v8_0) = hyArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_v8_1) = cyArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.CellValue

end
-- ==== Proof.lean ====
/-
  An LSTM cell: a Pallas kernel against its jnp reference, equal over the extended reals.

  Both programs compute, for batch row b and hidden unit h, the four gate pre-activations
      pre g = ((Σ_k x[b,k]·Wx[r,k] + bx[r]) + Σ_k hx[b,k]·Wh[r,k]) + bh[r],     r = 2048·g + h,
  then  cy = σ(pre 1)·cx[b,h] + σ(pre 0)·tanh(pre 2)  and  hy = σ(pre 3)·tanh(cy).
  The reference forms the stacked `[4096, 8192]` pre-activations with two `dot_general`s, slices the four gates out by
  columns and spells σ as `1 / (1 + e^(-z))`; the kernel casts x, hx and the weights to bf16 (no change of value over the
  extended reals), reshapes weights and biases to `[4, 2048, …]`, and on an 8 × 8 grid computes a 512 × 256 block of both
  results with eight matrix products into zero accumulators and the logistic function. The additions are grouped the
  same way on both sides and each product is the same sum over the 2048 contraction coordinates, so no law of extended-real
  arithmetic is needed beyond reading both sides entry by entry: the precondition (finite inputs) is not opened.

  Proof/Cell.lean states the cell's two formulas on numbers and as whole-array functions; Proof/RefCell.lean reads the
  reference's results down to them; Proof/BlockCell.lean reads the kernel body's two stores at a block entry;
  Proof/Arrays.lean carries block entries to array entries and names both results of the kernel's run. Here the five
  claims are assembled: the three frames (the reference's is its run with the results dropped), the idealization
  (no rewrite was applied: trivial), and the equality of results from memories that agree on the arguments.
-/
import proofs.«154997_j2250562863750_1_alg».proof.Defs
import proofs.«154997_j2250562863750_1_alg».proof.Proof.Gen.Kernel
import proofs.«154997_j2250562863750_1_alg».proof.Proof.Gen.Kernel.Frame
import proofs.«154997_j2250562863750_1_alg».proof.Proof.Gen.KernelIdeal
import proofs.«154997_j2250562863750_1_alg».proof.Proof.Gen.KernelIdeal.Frame
import proofs.«154997_j2250562863750_1_alg».proof.Proof.Gen.ReferenceIdeal
import proofs.«154997_j2250562863750_1_alg».proof.Proof.Gen.ReferenceIdeal.Run
import proofs.«154997_j2250562863750_1_alg».proof.Proof.Gen.ReferenceIdeal.Read
import proofs.«154997_j2250562863750_1_alg».proof.Proof.Gen.Pre_finite_inputs
import proofs.«154997_j2250562863750_1_alg».proof.Proof.RefCell
import proofs.«154997_j2250562863750_1_alg».proof.Proof.Arrays
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the seven arguments both programs end with the new hidden state and the new cell state
    at the same whole-array functions of the arguments. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v36_eq, Cert.ReferenceIdeal.CellValue.hy_eq, (hagree c).1, (hagree c).2.1,
      (hagree c).2.2.1, (hagree c).2.2.2.1, (hagree c).2.2.2.2.1, (hagree c).2.2.2.2.2.1, (hagree c).2.2.2.2.2.2]
  · rw [Cert.ReferenceIdeal.Read.val_main_v34_eq, Cert.ReferenceIdeal.CellValue.cy_eq, (hagree c).1, (hagree c).2.1,
      (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
